-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩

abbrev nBuf : Space → Nat
  | .hbm => 6
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .f32⟩
  | .hbm, ⟨3, _⟩ => ⟨S1x4096, .f32⟩
  | .hbm, ⟨4, _⟩ => ⟨S1x4096, .f32⟩
  | .hbm, ⟨5, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S8192x4096.size a
  hwx0_3 : ∀ i : grid0.Coords, EltTy.bits .f32 = 32 ∨ (Rect.block (s := S8192x4096) S256x4096.size (cc0_transform_3 i) (hinb0_3 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096 : Shape := ⟨1, ![4096]⟩
abbrev S1x4096 : Shape := ⟨2, ![1, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .f32⟩
  | .hbm, ⟨3, _⟩ => ⟨S1x4096, .f32⟩
  | .hbm, ⟨4, _⟩ => ⟨S8192x4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .i1⟩
  | .hbm, ⟨12, _⟩ => ⟨S_, .f32⟩
  | .hbm, ⟨13, _⟩ => ⟨S8192x4096, .f32⟩
  | .hbm, ⟨14, _⟩ => ⟨S8192x4096, .i1⟩
  | .hbm, ⟨15, _⟩ => ⟨S8192x4096, .i1⟩
  | .hbm, ⟨16, _⟩ => ⟨S_, .f32⟩
  | .hbm, ⟨17, _⟩ => ⟨S8192x4096, .f32⟩
  | .hbm, ⟨18, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)

variable [Facts₀]

class Facts : Prop extends Facts₀ where

variable [Facts]
-- ==== Proof.GateSpec.lean ====
/-
  The mathematics both programs compute: a diagonal affine map followed by a capped gate.

  For a matrix `x` of 8192 rows and 4096 columns and two vectors `w`, `b` of length 4096, the result at row `r`,
  column `k` is `capped (x r k · w k + b k)`, where `capped y = y` when `0 < y ≤ 1` and `0` otherwise.
  The comparison, the conjunction of the two tests and the choice are the instance's own scalar operations, so the
  function is stated for any float instance: nothing below needs a law of the extended reals, only that both
  programs apply the same operations, in the same order, to the same entries.
-/
import Idealize.ShloMosaic.PureOps

noncomputable section

namespace Cert.Gate

open Idealize.ShloMosaic

variable {F : FTy → Type} [FloatOps F]

/-- The matrix shape: 8192 rows of 4096 columns. -/
abbrev Mat : Shape := ⟨2, ![8192, 4096]⟩
/-- The shape of the weights and of the offsets: one entry per column. -/
abbrev Cols : Shape := ⟨1, ![4096]⟩

/-- The column of a matrix index, as an index of a length-4096 vector. -/
abbrev col (i : Mat.Idx) : Cols.Idx := fun a => match a with
  | ⟨0, _⟩ => ⟨(i 1).val, (i 1).isLt⟩

/-- The capped gate on one number: `y` where `0 < y` and `y ≤ 1`, zero elsewhere. The two bounds are the
    words of `0.0` and `1.0`; they are never evaluated, since both programs spell them alike. -/
abbrev capped (y : F .f32) : F .f32 :=
  Scalar.select (IntOp.andi (FloatOps.cmpf .ogt y (Scalar.ofBits .f32 0x00000000#32))
      (FloatOps.cmpf .ole y (Scalar.ofBits .f32 0x3F800000#32)))
    y (Scalar.ofBits .f32 0x00000000#32)

/-- The diagonal affine map at one entry: the entry times its column's weight, plus its column's offset. -/
abbrev affine (x : Mat.Idx → F .f32) (w b : Cols.Idx → F .f32) (i : Mat.Idx) : F .f32 :=
  FloatOps.addf (FloatOps.mulf (x i) (w (col i))) (b (col i))

/-- The whole result array as one function of the three argument arrays, entry by entry. -/
def gated (x : Mat.Idx → F .f32) (w b : Cols.Idx → F .f32) : Mat.Idx → F .f32 :=
  fun i => capped (affine x w b i)

theorem gated_apply (x : Mat.Idx → F .f32) (w b : Cols.Idx → F .f32) (i : Mat.Idx) :
    gated x w b i = capped (affine x w b i) := rfl

end Cert.Gate

end
-- ==== Proof.GateKernel.lean ====
/-
  The kernel's result array is the gated affine map of its three arguments.

  The kernel walks the 8192 rows in 32 blocks of 256 rows; at block `t` it loads rows `256 t … 256 t + 255` of the
  matrix and the one row holding the weights (and the one holding the offsets), which the program made before the
  launch by reshaping each length-4096 vector to a 1 × 4096 array. Inside a block the entry at row `r`, column `k`
  is the matrix entry at row `256 t + r`, column `k`, times the weight of column `k`, plus the offset of column
  `k`, put through the capped gate: the block is the restriction of ONE function of the whole arrays, and the 32
  blocks tile the array, so the array ends holding that function.
-/
import proofs.«118875_j30794915512766_1_alg».proof.Proof.Gen.KernelIdeal.Value
import proofs.«118875_j30794915512766_1_alg».proof.Proof.GateSpec
import Idealize.ShloMosaic.Lib.Pipeline.Value
import Idealize.ShloMosaic.Lib.StableHlo.Run

noncomputable section

namespace Cert.KernelIdeal.Gate

open Cert.KernelIdeal Cert.KernelIdeal.Gen Cert.KernelIdeal.Value Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem zero_offsets : (![0, 0] : Fin 2 → Nat) = fun _ => 0 := funext fun a => by fin_cases a <;> rfl

/-! ## The one-row arrays the launch finds -/

/-- A length-4096 vector reshaped to one row, read at (0, k), is the vector at k: both have row-major position k. -/
theorem row_apply (x : S4096.Idx → F .f32) (j : S1x4096.Idx) (k : S4096.Idx) (hk : (k 0).val = (j 1).val) :
    shapeCast S1x4096 x shapeCasts_S4096_S1x4096 j = x k := by
  refine shapeCast_apply x _ j k ?_
  rw [Shape.rowMajor_val_one, Shape.rowMajor_val_two]
  have h0 : (j 0).val < 1 := (j 0).isLt
  show (k 0).val = (j 0).val * 4096 + (j 1).val
  omega

/-- The launch finds the weights as one row: the first host operation's reshape of the second argument. -/
theorem weights_row (c : Dev nD) :
    (V m c main_v0 : S1x4096.Idx → F .f32) = shapeCast S1x4096 (m ((c : Thread nD τ).loc main_arg1)) shapeCasts_S4096_S1x4096 := by
  dsimp only [Gen.V, Gen.hostOps0]; after_results; rfl

/-- The launch finds the offsets as one row: the second host operation's reshape of the third argument. -/
theorem offsets_row (c : Dev nD) :
    (V m c main_v1 : S1x4096.Idx → F .f32) = shapeCast S1x4096 (m ((c : Thread nD τ).loc main_arg2)) shapeCasts_S4096_S1x4096 := by
  dsimp only [Gen.V, Gen.hostOps0]; after_results; rfl

/-! ## The body on one block -/

/-- What the body leaves in the output block, over blocks as variables: at row r, column k of the block, the gate of
    the matrix block's entry there times the weight row's entry at column k plus the offset row's entry at column k. -/
theorem body_apply (x0 : Vec F S256x4096 .f32) (x1 x2 : Vec F S1x4096 .f32) (y : S256x4096.Idx) :
    out0_3 x0 x1 x2 y
      = Cert.Gate.capped (FloatOps.addf (FloatOps.mulf (x0 y) (x1 (ix3_1 y))) (x2 (ix3_1 y))) := by
  unfold out0_3
  simp only [View.ld_unit_zero (S := S256x4096) zero_offsets, View.ld_unit_zero (S := S1x4096) zero_offsets]
  rw [canon3_eq]
  have e0 : ix3_0 y = y := funext fun a => Fin.ext (match a with | ⟨0, _⟩ => rfl | ⟨1, _⟩ => rfl)
  show Scalar.select (IntOp.andi (FloatOps.cmpf .ogt (FloatOps.addf (FloatOps.mulf (x0 (ix3_0 y)) (x1 (ix3_1 y))) (x2 (ix3_1 y))) (Scalar.ofBits .f32 0x00000000#32))
      (FloatOps.cmpf .ole (FloatOps.addf (FloatOps.mulf (x0 (ix3_0 y)) (x1 (ix3_1 y))) (x2 (ix3_1 y))) (Scalar.ofBits .f32 0x3F800000#32)))
    (FloatOps.addf (FloatOps.mulf (x0 (ix3_0 y)) (x1 (ix3_1 y))) (x2 (ix3_1 y))) (Scalar.ofBits .f32 0x00000000#32) = _
  rw [e0]

/-! ## From blocks to the array -/

/-- The printed index maps over the 32 points: the matrix and the output move together down the rows, block t at
    block row t, column block 0; the two one-row windows stay at block (0, 0). -/
theorem index_facts : ∀ t : Fin cfg0.N, win0_0.index t (0 : Fin 2) = win0_3.index t (0 : Fin 2)
    ∧ win0_0.index t (1 : Fin 2) = win0_3.index t (1 : Fin 2)
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the gated affine map of the arrays as the launch finds them. -/
theorem flushed_eq (c : Dev nD) (t : Fin cfg0.N) :
    (dats m 0 c).flushed 3 t = ((cfg0.win 3).blk t).view.read (Elt F)
      (Cert.Gate.gated (V m c main_arg0) (m ((c : Thread nD τ).loc main_arg1)) (m ((c : Thread nD τ).loc main_arg2))) := by
  rw [flushed3]
  obtain ⟨e0, e1, e2, e3, e4, e5, e6, e7⟩ := index_facts t
  funext j
  show out0_3 (iblk m c 0 t) (iblk m c 1 t) (iblk m c 2 t) j
    = Cert.Gate.gated (V m c main_arg0) (m ((c : Thread nD τ).loc main_arg1)) (m ((c : Thread nD τ).loc main_arg2)) (((cfg0.win 3).blk t).view.emb j)
  refine (body_apply (iblk m c 0 t) (iblk m c 1 t) (iblk m c 2 t) j).trans ?_
  rw [Cert.Gate.gated_apply]
  have hj0 : (j 0).val < 256 := (j 0).isLt
  have hj1 : (j 1).val < 4096 := (j 1).isLt
  -- the matrix block's entry is the matrix entry under the output block's index
  have hx : (iblk m c 0 t : Vec F S256x4096 .f32) j = V m c main_arg0 (((cfg0.win 3).blk t).view.emb j) := by
    show V m c main_arg0 (((cfg0.win 0).blk t).view.emb j) = V m c main_arg0 (((cfg0.win 3).blk t).view.emb j)
    refine congrArg (V m c main_arg0) (funext fun a => Fin.ext ?_)
    match a with
    | ⟨0, _⟩ => show win0_0.index t (0 : Fin 2) * 256 + 1 * (j 0).val = win0_3.index t (0 : Fin 2) * 256 + 1 * (j 0).val; omega
    | ⟨1, _⟩ => show win0_0.index t (1 : Fin 2) * 4096 + 1 * (j 1).val = win0_3.index t (1 : Fin 2) * 4096 + 1 * (j 1).val; omega
  -- the weight row's entry is the weight of the entry's column
  have hw : (iblk m c 1 t : Vec F S1x4096 .f32) (ix3_1 j)
      = m ((c : Thread nD τ).loc main_arg1) (Cert.Gate.col (((cfg0.win 3).blk t).view.emb j)) := by
    show V m c main_v0 (((cfg0.win 1).blk t).view.emb (ix3_1 j)) = _
    rw [weights_row]
    refine row_apply _ _ _ ?_
    show win0_3.index t (1 : Fin 2) * 4096 + 1 * (j 1).val = win0_1.index t (1 : Fin 2) * 4096 + 1 * (j 1).val
    omega
  -- the offset row's entry is the offset of the entry's column
  have hb : (iblk m c 2 t : Vec F S1x4096 .f32) (ix3_1 j)
      = m ((c : Thread nD τ).loc main_arg2) (Cert.Gate.col (((cfg0.win 3).blk t).view.emb j)) := by
    show V m c main_v1 (((cfg0.win 2).blk t).view.emb (ix3_1 j)) = _
    rw [offsets_row]
    refine row_apply _ _ _ ?_
    show win0_3.index t (1 : Fin 2) * 4096 + 1 * (j 1).val = win0_2.index t (1 : Fin 2) * 4096 + 1 * (j 1).val
    omega
  rw [hx, hw, hb]

/-- An index of the array is in point t's block iff each coordinate is in the block's range on its axis. -/
theorem mem_block (t : Fin cfg0.N) (i : S8192x4096.Idx) :
    i ∈ ((cfg0.win 3).blk t).view.set ↔ ∀ a : Fin 2, win0_3.index t a * S256x4096.size a ≤ (i a).val ∧ (i a).val < win0_3.index t a * S256x4096.size a + S256x4096.size a := by
  show i ∈ ((View.whole main_v2).slice (win0_3.rect t)).set ↔ _
  rw [View.set_slice_whole, Rect.mem_set_unit]
  exact Iff.rfl

/-- Every entry of the array lies in some point's block: the entry at row r in block r / 256. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 32 := N_0
  let t : Fin cfg0.N := ⟨(i 0).val / 256, by rw [hN]; omega⟩
  obtain ⟨-, -, -, -, -, -, e6, e7⟩ := index_facts t
  have e6' : win0_3.index t (0 : Fin 2) = (i 0).val / 256 := e6
  refine ⟨t, flush0_3 t, ?_⟩
  rw [mem_block]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 4096 ≤ (i 1).val ∧ (i 1).val < win0_3.index t (1 : Fin 2) * 4096 + 4096; omega

/-- The result array after the run is the gated affine map of the three arguments as launched. -/
theorem final (c : Dev nD) :
    (dats m 0 c).arrAt 3 cfg0.N
      = Cert.Gate.gated (m ((c : Thread nD τ).loc main_arg0)) (m ((c : Thread nD τ).loc main_arg1)) (m ((c : Thread nD τ).loc main_arg2)) := by
  rw [← V_main_arg0 m c]
  exact (dats m 0 c).arrAt_eq_of_cover 3 _ (fun t _ => flushed_eq m c t) covered

/-- The run, read: the result array at the gated affine map of the arguments, the arguments unchanged. -/
theorem run : θ_run defs (onTc (τ := τ) (main (F := F))) ⟨m, fun _ => 0, ρ⟩ fun r => ∀ c : Dev nD,
      r.2.mem ((c : Thread nD τ).loc main_v2)
        = Cert.Gate.gated (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Gate

end
-- ==== Proof.GateReference.lean ====
/-
  The reference, read entry by entry, is the gated affine map.

  The reference broadcasts the weights and the offsets first to one row of 4096 entries and then down the 8192
  rows, multiplies, adds, tests the sum against zero and one, and chooses between the sum and zero. Read at a matrix
  index, each of the two broadcasts keeps only the column, so the weight and the offset an entry meets are those of
  its column; the remaining operations act entry by entry. That is the specification's function, term for term.
-/
import proofs.«118875_j30794915512766_1_alg».proof.Proof.Gen.ReferenceIdeal.Read
import proofs.«118875_j30794915512766_1_alg».proof.Proof.GateSpec

noncomputable section

namespace Cert.ReferenceIdeal.Gate

open Cert.ReferenceIdeal Cert.ReferenceIdeal.Read Idealize.ShloMosaic

variable {F : FTy → Type} [FloatOps F]

/-- Through the two broadcasts (to one row, then down the rows) a matrix index reads the vector at its column. -/
theorem column_of_broadcasts (i : S8192x4096.Idx) : idx_main_v0 (idx_main_v1 i) = Cert.Gate.col i :=
  funext fun a => match a with
    | ⟨0, _⟩ => rfl

/-- The same for the second pair of broadcasts (the offsets'). -/
theorem column_of_broadcasts' (i : S8192x4096.Idx) : idx_main_v3 (idx_main_v4 i) = Cert.Gate.col i :=
  funext fun a => match a with
    | ⟨0, _⟩ => rfl

/-- The sum the reference tests, at an entry: the entry times its column's weight plus its column's offset. -/
theorem sum_apply (x0 : (⟨S8192x4096, .f32⟩ : BufTy).Contents (Elt F)) (x1 x2 : (⟨S4096, .f32⟩ : BufTy).Contents (Elt F))
    (i : S8192x4096.Idx) :
    val_main_v5 (F := F) x0 x1 x2 i = Cert.Gate.affine x0 x1 x2 i := by
  rw [val_main_v5_apply, val_main_v2_apply, val_main_v1_apply, val_main_v0_apply, val_main_v4_apply, val_main_v3_apply,
    column_of_broadcasts, column_of_broadcasts']

/-- The reference's result is the gated affine map of its three arguments. -/
theorem result_eq (x0 : (⟨S8192x4096, .f32⟩ : BufTy).Contents (Elt F)) (x1 x2 : (⟨S4096, .f32⟩ : BufTy).Contents (Elt F)) :
    val_main_v12 (F := F) x0 x1 x2 = Cert.Gate.gated x0 x1 x2 := by
  funext i
  rw [val_main_v12_apply, val_main_v10_apply, val_main_v7_apply, val_main_v9_apply, val_main_v6_apply, val_main_v8_apply,
    val_main_v11_apply, val_main_cst_apply, val_main_cst_0_apply, val_main_cst_1_apply, sum_apply]
  rfl

end Cert.ReferenceIdeal.Gate

end
-- ==== Proof.lean ====
/-
  The kernel and its reference compute one function: a diagonal affine map followed by a capped gate.

  For a matrix `x` (8192 × 4096) and vectors `w`, `b` (length 4096) both programs return, at row `r` and column `k`,
  `capped (x r k · w k + b k)` with `capped y = y` where `0 < y ≤ 1` and `0` elsewhere (GateSpec.lean). The kernel
  computes it 256 rows at a time against the weights and offsets reshaped to one row (GateKernel.lean: each block is
  the restriction of that one function, and the 32 blocks tile the array); the reference broadcasts the two vectors
  down the rows and applies the same operations to whole arrays (GateReference.lean). The two sides apply the same
  scalar operations to the same entries, so they agree at every float instance and no law of the extended reals, and no
  finiteness of the inputs, is used. The idealization rewrote nothing, so the kernel's idealized text is its own text.
-/
import proofs.«118875_j30794915512766_1_alg».proof.Defs
import proofs.«118875_j30794915512766_1_alg».proof.Proof.Gen.Kernel
import proofs.«118875_j30794915512766_1_alg».proof.Proof.Gen.Kernel.Skeleton
import proofs.«118875_j30794915512766_1_alg».proof.Proof.Gen.Kernel.Launch
import proofs.«118875_j30794915512766_1_alg».proof.Proof.Gen.Kernel.Points
import proofs.«118875_j30794915512766_1_alg».proof.Proof.Gen.Kernel.Frame
import proofs.«118875_j30794915512766_1_alg».proof.Proof.Gen.KernelIdeal
import proofs.«118875_j30794915512766_1_alg».proof.Proof.Gen.KernelIdeal.Skeleton
import proofs.«118875_j30794915512766_1_alg».proof.Proof.Gen.KernelIdeal.Launch
import proofs.«118875_j30794915512766_1_alg».proof.Proof.Gen.KernelIdeal.Points
import proofs.«118875_j30794915512766_1_alg».proof.Proof.Gen.KernelIdeal.Frame
import proofs.«118875_j30794915512766_1_alg».proof.Proof.Gen.ReferenceIdeal
import proofs.«118875_j30794915512766_1_alg».proof.Proof.Gen.Pre_finite_inputs
import proofs.«118875_j30794915512766_1_alg».proof.Proof.Gen.KernelIdeal.Value
import proofs.«118875_j30794915512766_1_alg».proof.Proof.Gen.ReferenceIdeal.Run
import proofs.«118875_j30794915512766_1_alg».proof.Proof.Gen.ReferenceIdeal.Read
import proofs.«118875_j30794915512766_1_alg».proof.Proof.GateSpec
import proofs.«118875_j30794915512766_1_alg».proof.Proof.GateKernel
import proofs.«118875_j30794915512766_1_alg».proof.Proof.GateReference
import Idealize.ShloMosaic.Adequacy
import Idealize.ShloMosaic.Init

noncomputable section

namespace Cert.Proof

open Idealize.ShloMosaic Idealize.SL.Sem

/-- The kernel as printed runs to the end and leaves its three arguments as they were. -/
theorem frame_kernel [Cert.Pre_finite_inputs.Facts] : Cert.frame_Kernel (hKernel := Cert.Kernel.Gen.facts) :=
  fun m ρ _ => Cert.Kernel.Gen.frame m ρ

/-- So does its idealized text. -/
theorem frame_kernelIdeal [Cert.Pre_finite_inputs.Facts] : Cert.frame_KernelIdeal (hKernelIdeal := Cert.KernelIdeal.Gen.facts) :=
  fun m ρ _ => Cert.KernelIdeal.Gen.frame m ρ

/-- The reference is a line of whole-array operations: it runs to the end and writes none of its arguments. -/
theorem frame_reference [Cert.Pre_finite_inputs.Facts] : Cert.frame_ReferenceIdeal (hReferenceIdeal := Cert.ReferenceIdeal.Gen.facts) :=
  fun m ρ _ => (θ_run Cert.ReferenceIdeal.defs _ _).mono (fun _ h c => (h c).2) (Cert.ReferenceIdeal.Value.run (F := Ideal) m ρ)

/-- From memories that agree on the three arguments, the kernel's result array and the reference's both end at the
    gated affine map of those arguments. -/
theorem algebraic [Cert.Pre_finite_inputs.Facts] :
    Cert.algebraic_KernelIdeal_ReferenceIdeal (hKernelIdeal := Cert.KernelIdeal.Gen.facts) (hReferenceIdeal := Cert.ReferenceIdeal.Gen.facts) := by
  intro m ρ m' ρ' _ hagree
  refine ⟨_, Cert.KernelIdeal.Gate.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.Gate.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
